-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x4096 : Shape := ⟨3, ![16, 2048, 4096]⟩
abbrev S64x4096 : Shape := ⟨2, ![64, 4096]⟩
abbrev S64 : Shape := ⟨1, ![64]⟩
abbrev S_ : Shape := ⟨0, ![]⟩

class Facts : Prop where
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x2048x4096 .f32) (main_arg1 : FVec F S64x4096 .f32) (main_arg2 : FVec F S64 .f32) : IVec S_ 1 :=
  let main_v0 : FVec F S16x2048x4096 .f32 := Host.absf main_arg0
  let main_cst : FVec F S_ .f32 := constant S_ .f32 0x7F800000#32
  let main_v1 : FVec F S16x2048x4096 .f32 := broadcastInDim S16x2048x4096 ![] bcast_S_S16x2048x4096 main_cst
  let main_v2 : IVec S16x2048x4096 1 := cmpf .olt main_v0 main_v1
  let main_c : IVec S_ 1 := constantI S_ 1 1#1
  let main_v3 : IVec S_ 1 := (fun x v => Host.reduce IntOp.andi x v reducesTo_S16x2048x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x2048x4096 : Shape := ⟨3, ![16, 2048, 4096]⟩
abbrev S64x4096 : Shape := ⟨2, ![64, 4096]⟩
abbrev S64 : Shape := ⟨1, ![64]⟩
abbrev S32768x4096 : Shape := ⟨2, ![32768, 4096]⟩
abbrev S32768x64 : Shape := ⟨2, ![32768, 64]⟩
abbrev S1024x4096 : Shape := ⟨2, ![1024, 4096]⟩
abbrev S1024x64 : Shape := ⟨2, ![1024, 64]⟩
abbrev S4096x64 : Shape := ⟨2, ![4096, 64]⟩
abbrev S1x64 : Shape := ⟨2, ![1, 64]⟩
abbrev S16x2048x64 : Shape := ⟨3, ![16, 2048, 64]⟩

abbrev nBuf : Space → Nat
  | .hbm => 6
  | .vmem => 6
  | .smem => 0
  | _ => 0

abbrev bufTy : (tb : Table) → Fin (tcTables nBuf tb) → BufTy
  | .hbm, ⟨0, _⟩ => ⟨S16x2048x4096, .f32⟩
  | .hbm, ⟨1, _⟩ => ⟨S64x4096, .f32⟩
  | .hbm, ⟨2, _⟩ => ⟨S64, .f32⟩
  | .hbm, ⟨3, _⟩ => ⟨S32768x4096, .f32⟩
  | .hbm, ⟨4, _⟩ => ⟨S32768x64, .f32⟩
  | .hbm, ⟨5, _⟩ => ⟨S16x2048x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S64, .f32⟩
  | .local _ .vmem, ⟨4, _⟩ => ⟨S1024x64, .f32⟩
  | .local _ .vmem, ⟨5, _⟩ => ⟨S1024x64, .f32⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048x4096_S32768x4096 : S16x2048x4096.ShapeCasts S32768x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  transposes_S64x4096_p1_0_S4096x64 : S64x4096.Transposes [1, 0] S4096x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S32768x64_S16x2048x64 : S32768x64.ShapeCasts S16x2048x64
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x4096 : Shape := ⟨3, ![16, 2048, 4096]⟩
abbrev S64x4096 : Shape := ⟨2, ![64, 4096]⟩
abbrev S64 : Shape := ⟨1, ![64]⟩
abbrev S16x2048x64 : Shape := ⟨3, ![16, 2048, 64]⟩
abbrev S1x1x64 : Shape := ⟨3, ![1, 1, 64]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S64x4096, .f32⟩
  | .hbm, ⟨2, _⟩ => ⟨S64, .f32⟩
  | .hbm, ⟨3, _⟩ => ⟨S16x2048x64, .f32⟩
  | .hbm, ⟨4, _⟩ => ⟨S1x1x64, .f32⟩
  | .hbm, ⟨5, _⟩ => ⟨S16x2048x64, .f32⟩
  | .hbm, ⟨6, _⟩ => ⟨S16x2048x64, .f32⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  dot_S16x2048x4096_S64x4096_S16x2048x64_2_1_01_0_n_n_wf : DotDims.WF S16x2048x4096 S64x4096 S16x2048x64 [2] [1] [0, 1] [0] [] []

variable [Facts₀]

def dot_S16x2048x4096_S64x4096_S16x2048x64_2_1_01_0_n_n : DotDims S16x2048x4096 S64x4096 S16x2048x64 where
  lhsContracting := [2]
  rhsContracting := [1]
  lhsNonContracting := [0, 1]
  rhsNonContracting := [0]
  lhsBatch := []
  rhsBatch := []
  wf := dot_S16x2048x4096_S64x4096_S16x2048x64_2_1_01_0_n_n_wf

class Facts : Prop extends Facts₀ where

variable [Facts]
-- ==== Proof.Linear.lean ====
/-
  The linear layer, entry by entry.

  For an input of shape [16, 2048, 4096], a weight matrix of shape [64, 4096] (one row per output feature) and a bias of
  64 numbers, the layer's entry (b, s, n) is the inner product of the input's row (b, s) with the weight's row n, plus
  bias n, on the extended reals:  out[b, s, n] = ∑ k, x[b, s, k] · w[n, k] + bias[n].
  The same entry is written for the input flattened to 32768 rows: row r = 2048 · b + s of the flattened input IS row
  (b, s) of the input, so the flattened layer at (r, n) and the layer at (b, s, n) are one number.
-/
import Idealize.ShloMosaic.Lib.ValueIdx
import Idealize.ShloMosaic.PureOps.Ideal

noncomputable section

namespace Cert.Linear

open Idealize.ShloMosaic Idealize.ShloMosaic.ValueIdx

/-- One entry of the layer from one input row: the row against the weight's row `n`, plus bias `n`. -/
def entry (row : Fin 4096 → EReal) (w : FVec Ideal ⟨2, ![64, 4096]⟩ .f32) (b : FVec Ideal ⟨1, ![64]⟩ .f32) (n : Fin 64) : EReal :=
  ∑ k : Fin 4096, row k * w (ix2 n k) + b (ix1 n)

/-- An entry depends on the input row only through the row's numbers. -/
theorem entry_congr {row row' : Fin 4096 → EReal} (e : ∀ k, row k = row' k) (w : FVec Ideal ⟨2, ![64, 4096]⟩ .f32)
    (b : FVec Ideal ⟨1, ![64]⟩ .f32) (n : Fin 64) : entry row w b n = entry row' w b n := by
  rw [show row = row' from funext e]

/-- The layer over the input as given: entry (b, s, n) from row (b, s). -/
def layer (x : FVec Ideal ⟨3, ![16, 2048, 4096]⟩ .f32) (w : FVec Ideal ⟨2, ![64, 4096]⟩ .f32) (b : FVec Ideal ⟨1, ![64]⟩ .f32) :
    FVec Ideal ⟨3, ![16, 2048, 64]⟩ .f32 :=
  fun i => entry (fun k => x (ix3 (i 0) (i 1) k)) w b (i 2)

/-- The layer over the input flattened to 32768 rows: entry (r, n) from row r. -/
def rows (x2 : FVec Ideal ⟨2, ![32768, 4096]⟩ .f32) (w : FVec Ideal ⟨2, ![64, 4096]⟩ .f32) (b : FVec Ideal ⟨1, ![64]⟩ .f32) :
    FVec Ideal ⟨2, ![32768, 64]⟩ .f32 :=
  fun i => entry (fun k => x2 (ix2 (i 0) k)) w b (i 1)

end Cert.Linear

end
-- ==== Proof.RefSide.lean ====
/-
  The reference computes the linear layer.

  The host program contracts the input's last axis with the weight's last axis (entry (b, s, n) is ∑ k, x[b, s, k] · w[n, k]),
  lays the bias along the last axis of a [1, 1, 64] array and that along every (b, s), and adds: entry by entry this is
  the layer of Linear.lean.
-/
import proofs.«147193_j65558380806418_1_alg».proof.Proof.Gen.ReferenceIdeal.Run
import proofs.«147193_j65558380806418_1_alg».proof.Proof.Gen.ReferenceIdeal.Read
import proofs.«147193_j65558380806418_1_alg».proof.Proof.Linear

noncomputable section

namespace Cert.ReferenceIdeal.Layer

open Idealize.ShloMosaic Idealize.ShloMosaic.ValueIdx Cert.ReferenceIdeal Cert.ReferenceIdeal.Read

/-- The contraction reads the input at (b, s, k). -/
theorem lidx_eq (i : S16x2048x64.Idx) (k : Fin 4096) : lidx_main_v0 i k = ix3 (i 0) (i 1) k :=
  funext fun a => by match a with | ⟨0, _⟩ => rfl | ⟨1, _⟩ => rfl | ⟨2, _⟩ => rfl

/-- And the weight at (n, k). -/
theorem ridx_eq (i : S16x2048x64.Idx) (k : Fin 4096) : ridx_main_v0 i k = ix2 (i 2) k :=
  funext fun a => by match a with | ⟨0, _⟩ => rfl | ⟨1, _⟩ => rfl

/-- The two broadcasts read the bias at n. -/
theorem bidx_eq (i : S16x2048x64.Idx) : idx_main_v1 (idx_main_v2 i) = ix1 (i 2) :=
  funext fun a => by match a with | ⟨0, _⟩ => rfl

/-- The reference's result, as a function of its three arguments, is the layer. -/
theorem result_eq (x : FVec Ideal S16x2048x4096 .f32) (w : FVec Ideal S64x4096 .f32) (b : FVec Ideal S64 .f32) :
    val_main_v3 (F := Ideal) x w b = Cert.Linear.layer x w b := by
  funext i
  rw [val_main_v3_apply, val_main_v0_apply, val_main_v2_apply, val_main_v1_apply]
  simp only [lidx_eq, ridx_eq, bidx_eq]
  rfl

end Cert.ReferenceIdeal.Layer

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Tile.lean ====
/-
  One tile of the kernel computes 1024 rows of the layer.

  The body takes a [1024, 4096] block of the flattened input, the whole [64, 4096] weight and the bias; it transposes the
  weight to [4096, 64], multiplies the block by it into a zero accumulator and adds the bias laid along every row. Changing
  the float format is the identity on the extended reals, so entry (p, q) of what it stores is
  ∑ k, block[p, k] · w[q, k] + bias[q]: the layer's entry from row p of the block.
-/
import proofs.«147193_j65558380806418_1_alg».proof.Proof.Gen.KernelIdeal.Skeleton
import proofs.«147193_j65558380806418_1_alg».proof.Proof.LibDense
import proofs.«147193_j65558380806418_1_alg».proof.Proof.Linear
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen

/-- The block times the transposed weight, into zeros, at (p, q): row p of the block against row q of the weight. -/
theorem product_apply (xb : Vec Ideal S1024x4096 .f32) (wb : Vec Ideal S64x4096 .f32) (p : Fin 1024) (q : Fin 64) :
    matmul dot_S1024x4096_S4096x64_S1024x64_1_0_0_1_n_n none
        (truncf .bf16 (shapeCast S1024x4096 xb shapeCasts_S1024x4096_S1024x4096) bitsLt_bf16_f32)
        (transpose S4096x64 [1, 0] (truncf .bf16 wb bitsLt_bf16_f32) transposes_S64x4096_p1_0_S4096x64)
        (constant (F := Ideal) S1024x64 .f32 0x00000000#32) (ix2 p q)
      = ∑ k : Fin 4096, xb (ix2 p k) * wb (ix2 q k) := by
  refine (Cert.LibDense.matmul_plain_zero_apply (M := 1024) (K := 4096) (N := 64) none _ _ p q).trans ?_
  refine Finset.sum_congr rfl fun k _ => ?_
  rw [transpose_ix2_apply, shapeCast_self]
  rfl

/-- The bias, made a one-row matrix and laid along every row, at (p, q), is bias q. -/
theorem bias_apply (bb : Vec Ideal S64 .f32) (p : Fin 1024) (q : Fin 64) :
    broadcastTo S1024x64 (shapeCast S1x64 bb shapeCasts_S64_S1x64) broadcasts_S1x64_S1024x64 (ix2 p q) = bb (ix1 q) := by
  rw [broadcastTo_1b_ab_apply, shapeCast_a_1a_apply]

/-- What the body stores, at (p, q), is the layer's entry q from row p of its input block. -/
theorem stored_apply (xb : Vec Ideal S1024x4096 .f32) (wb : Vec Ideal S64x4096 .f32) (bb : Vec Ideal S64 .f32)
    (p : Fin 1024) (q : Fin 64) :
    k0_pay1 (F := Ideal) xb wb bb (ix2 p q) = Cert.Linear.entry (fun k => xb (ix2 p k)) wb bb q := by
  show matmul dot_S1024x4096_S4096x64_S1024x64_1_0_0_1_n_n none
        (truncf .bf16 (shapeCast S1024x4096 xb shapeCasts_S1024x4096_S1024x4096) bitsLt_bf16_f32)
        (transpose S4096x64 [1, 0] (truncf .bf16 wb bitsLt_bf16_f32) transposes_S64x4096_p1_0_S4096x64)
        (constant (F := Ideal) S1024x64 .f32 0x00000000#32) (ix2 p q)
      + broadcastTo S1024x64 (shapeCast S1x64 bb shapeCasts_S64_S1x64) broadcasts_S1x64_S1024x64 (ix2 p q) = _
  rw [product_apply, bias_apply]
  rfl

/-- The stored tile at `j` is the flattened layer at `i` whenever row `j 0` of the input block is row `i 0` of the
    flattened input, the weight and bias blocks are the whole arrays, and `j` and `i` name the same column. -/
theorem stored_eq_rows (xb : Vec Ideal S1024x4096 .f32) (wb : Vec Ideal S64x4096 .f32) (bb : Vec Ideal S64 .f32)
    (X : FVec Ideal S32768x4096 .f32) (W : FVec Ideal S64x4096 .f32) (B : FVec Ideal S64 .f32)
    (j : S1024x64.Idx) (i : S32768x64.Idx)
    (hx : ∀ k : Fin 4096, xb (ix2 (j 0) k) = X (ix2 (i 0) k)) (hw : wb = W) (hb : bb = B)
    (hn : (j 1).val = (i 1).val) :
    k0_pay1 (F := Ideal) xb wb bb j = Cert.Linear.rows X W B i := by
  subst hw hb
  have hn' : (j 1 : Fin 64) = i 1 := Fin.ext hn
  refine (congrArg (k0_pay1 (F := Ideal) xb wb bb) (eq_ix2 j)).trans ?_
  refine (stored_apply xb wb bb (j 0) (j 1)).trans ?_
  show Cert.Linear.entry (fun k => xb (ix2 (j 0) k)) wb bb (j 1) = Cert.Linear.entry (fun k => X (ix2 (i 0) k)) wb bb (i 1)
  rw [hn']
  exact Cert.Linear.entry_congr hx wb bb (i 1)

end Cert.KernelIdeal.Tile

end
-- ==== Proof.Flatten.lean ====
/-
  Flattening the leading axes commutes with the layer.

  Reshaping [16, 2048, 4096] to [32768, 4096] keeps the row-major order, so row r = 2048 · b + s of the flattened input is
  row (b, s) of the input; reshaping the [32768, 64] result back to [16, 2048, 64] puts row r at (b, s). Hence the layer
  computed on the flattened input and reshaped back is the layer on the input, entry by entry.
-/
import proofs.«147193_j65558380806418_1_alg».proof.Proof.Linear
import Idealize.ShloMosaic.Lib.Pipeline.Value

noncomputable section

namespace Cert.Linear

open Idealize.ShloMosaic Idealize.ShloMosaic.ValueIdx

/-- Row (b, s) of the input sits at row 2048 · b + s of the flattened input. -/
def flatRow (b : Fin 16) (s : Fin 2048) : Fin 32768 := ⟨b.val * 2048 + s.val, by have := b.isLt; have := s.isLt; omega⟩

/-- The flattened input at (2048 · b + s, k) is the input at (b, s, k). -/
theorem flat_apply (x : FVec Ideal ⟨3, ![16, 2048, 4096]⟩ .f32)
    (h : (⟨3, ![16, 2048, 4096]⟩ : Shape).ShapeCasts ⟨2, ![32768, 4096]⟩) (b : Fin 16) (s : Fin 2048) (k : Fin 4096) :
    shapeCast ⟨2, ![32768, 4096]⟩ x h (ix2 (flatRow b s) k) = x (ix3 b s k) :=
  shapeCast_apply x h _ _ (by
    rw [Shape.rowMajor_val_three, Shape.rowMajor_val_two]
    show (b.val * 2048 + s.val) * 4096 + k.val = (b.val * 2048 + s.val) * 4096 + k.val
    rfl)

/-- The layer of the flattened input, reshaped back, is the layer of the input. -/
theorem unflatten_rows (x : FVec Ideal ⟨3, ![16, 2048, 4096]⟩ .f32) (w : FVec Ideal ⟨2, ![64, 4096]⟩ .f32)
    (bias : FVec Ideal ⟨1, ![64]⟩ .f32) (h1 : (⟨3, ![16, 2048, 4096]⟩ : Shape).ShapeCasts ⟨2, ![32768, 4096]⟩)
    (h2 : (⟨2, ![32768, 64]⟩ : Shape).ShapeCasts ⟨3, ![16, 2048, 64]⟩) :
    shapeCast ⟨3, ![16, 2048, 64]⟩ (rows (shapeCast ⟨2, ![32768, 4096]⟩ x h1) w bias) h2 = layer x w bias := by
  funext i
  obtain ⟨b, s, n, rfl⟩ : ∃ (b : Fin 16) (s : Fin 2048) (n : Fin 64), i = ix3 b s n := ⟨i 0, i 1, i 2, eq_ix3 i⟩
  rw [shapeCast_apply (rows (shapeCast ⟨2, ![32768, 4096]⟩ x h1) w bias) h2 (ix3 b s n) (ix2 (flatRow b s) n) (by
    rw [Shape.rowMajor_val_two, Shape.rowMajor_val_three]
    show (b.val * 2048 + s.val) * 64 + n.val = (b.val * 2048 + s.val) * 64 + n.val
    rfl)]
  show entry (fun k => shapeCast ⟨2, ![32768, 4096]⟩ x h1 (ix2 (flatRow b s) k)) w bias n = entry (fun k => x (ix3 b s k)) w bias n
  exact entry_congr (fun k => flat_apply x h1 b s k) w bias n

end Cert.Linear

end
-- ==== Proof.Whole.lean ====
/-
  The kernel's whole run computes the linear layer.

  The program flattens the input to 32768 rows, runs the tile body at 32 grid points and reshapes the [32768, 64] result
  to [16, 2048, 64]. At point t the input window's block is rows 1024·t … 1024·t + 1023 of the flattened input, the weight
  and bias windows are the whole arrays at every point, and the output window's block is rows 1024·t … 1024·t + 1023 of
  the result. So what point t writes back is block t of the flattened layer (Tile.lean), the 32 blocks tile the result
  array (row r lies in block r / 1024), and the result array ends holding the flattened layer; reshaped back it is the
  layer of the input (Flatten.lean).
-/
import proofs.«147193_j65558380806418_1_alg».proof.Proof.Gen.KernelIdeal.Frame
import proofs.«147193_j65558380806418_1_alg».proof.Proof.Tile
import proofs.«147193_j65558380806418_1_alg».proof.Proof.Flatten
import Idealize.ShloMosaic.Lib.Pipeline.Value
import Idealize.ShloMosaic.Lib.StableHlo.Run
import Idealize.ShloMosaic.Lib.Tactic

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Where each window's block sits at grid point `t`: the input's and the output's at block row `t`, the weight's and the
    bias's at the origin. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The flattened layer of the arrays as the region finds them. -/
abbrev tiles (c : Dev nD) : FVec Ideal S32768x64 .f32 :=
  Cert.Linear.rows (V m c main_v0) (V m c main_arg1) (V m c main_arg2)

/-- What point `t` writes back is block `t` of the flattened layer. -/
theorem flushed_eq (c : Dev nD) (t : Fin cfg0.N) :
    (dats m 0 c).flushed 3 t = ((cfg0.win 3).blk t).view.read (Elt Ideal) (tiles m c) := by
  show (cfg0.win 3).cut (grid0.coords t) ((dats m 0 c).after 3 t) = _
  rw [after0_3]
  unfold out0_3
  rw [View.canon_unit_zero zero2]
  simp only [View.ld_unit_zero (S := S1024x4096) zero2, View.ld_unit_zero (S := S64x4096) zero2, View.ld_unit_zero (S := S64) zero1]
  obtain ⟨e00, e01, e10, e11, e20, e30, e31⟩ := block_index t
  funext j
  show k0_pay1 (F := Ideal) (iblk m c 0 t) (iblk m c 1 t) (iblk m c 2 t) j = tiles m c (((cfg0.win 3).blk t).view.emb j)
  refine Cert.KernelIdeal.Tile.stored_eq_rows (iblk m c 0 t) (iblk m c 1 t) (iblk m c 2 t) (V m c main_v0) (V m c main_arg1)
    (V m c main_arg2) j (((cfg0.win 3).blk t).view.emb j) ?_ ?_ ?_ ?_
  · intro k
    show V m c main_v0 (((cfg0.win 0).blk t).view.emb (ix2 (j 0) k)) = V m c main_v0 (ix2 ((((cfg0.win 3).blk t).view.emb j) 0) k)
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · funext y
    show V m c main_arg1 (((cfg0.win 1).blk t).view.emb y) = V m c main_arg1 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 4096 + 1 * (y 1).val = (y 1).val; omega
  · funext y
    show V m c main_arg2 (((cfg0.win 2).blk t).view.emb y) = V m c main_arg2 y
    refine congrArg _ (funext fun a => Fin.ext ?_)
    match a with
    | ⟨0, _⟩ => show win0_2.index t (0 : Fin 1) * 64 + 1 * (y 0).val = (y 0).val; omega
  · show (j 1).val = win0_3.index t (1 : Fin 2) * 64 + 1 * (j 1).val
    omega

/-- An index of the result array is in point `t`'s block iff each coordinate is in the block's range on its axis. -/
theorem mem_block (t : Fin cfg0.N) (i : S32768x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v1).slice (win0_3.rect t)).set ↔ _
  rw [View.set_slice_whole, Rect.mem_set_unit]
  exact Iff.rfl

/-- Row `r` of the result array lies in the block of point `r / 1024`. -/
theorem covered (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 32 := N_0
  refine ⟨⟨(i 0).val / 1024, by rw [hN]; omega⟩, flush0_3 _, ?_⟩
  rw [mem_block]
  obtain ⟨-, -, -, -, -, e30, e31⟩ := block_index ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]
    show (i 0).val / 1024 * 1024 ≤ (i 0).val ∧ (i 0).val < (i 0).val / 1024 * 1024 + 1024
    omega
  | ⟨1, _⟩ =>
    show win0_3.index _ (1 : Fin 2) * 64 ≤ (i 1).val ∧ (i 1).val < win0_3.index _ (1 : Fin 2) * 64 + 64
    rw [e31]
    omega

/-- The result array after the region is the flattened layer. -/
theorem result_array (c : Dev nD) : (dats m 0 c).arrAt 3 cfg0.N = tiles m c :=
  (dats m 0 c).arrAt_eq_of_cover 3 (tiles m c) (fun t _ => flushed_eq m c t) (covered)

/-- The region finds, in the input window's array, the input flattened. -/
theorem flattened_input (c : Dev nD) :
    (V m c main_v0 : FVec Ideal S32768x4096 .f32)
      = shapeCast S32768x4096 (m ((c : Thread nD τ).loc main_arg0) : FVec Ideal S16x2048x4096 .f32) shapeCasts_S16x2048x4096_S32768x4096 := by
  show StableHlo.after hostOps0 (fun b => m (c, b)) (Proc.devRef .tc main_v0) = _
  after_results
  rfl

/-- The program's result, after the closing reshape, is the layer of the arguments as launched. -/
theorem result_eq (c : Dev nD) :
    (Pipeline.afterTail₀ cfgs (dats m) 0 (V0 m) [hostOps1] c main_v2 : FVec Ideal S16x2048x64 .f32)
      = Cert.Linear.layer (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1) = tiles m c from
    (Pipeline.withArrays_arr spec0 launch0.win.arr_inj c _ _ 3).trans (result_array m c)]
  unfold tiles
  rw [flattened_input, V_main_arg1, V_main_arg2]
  exact Cert.Linear.unflatten_rows _ _ _ _ _

/-- Every weakly fair execution of the kernel's program terminates with the result at the layer of the arguments and the
    arguments unchanged. -/
theorem run : θ_run defs (onTc (τ := τ) (main (F := Ideal))) ⟨m, fun _ => 0, ρ⟩ fun r => ∀ c : Dev nD,
      r.2.mem ((c.tc : Thread nD τ).loc main_v2)
        = Cert.Linear.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Whole

end
-- ==== Proof.lean ====
/-
  A linear layer as a tiled kernel against its one-line reference.

  For an input x of shape [16, 2048, 4096], a weight w of shape [64, 4096] and a bias of 64 numbers both programs compute
      out[b, s, n] = ∑ k, x[b, s, k] · w[n, k] + bias[n]
  on the extended reals. The reference contracts x's last axis with w's last axis and adds the bias laid along (b, s)
  (Proof/RefSide.lean). The kernel flattens x to 32768 rows, and at each of 32 grid points multiplies a block of 1024 rows
  by the transposed weight into a zero accumulator and adds the bias along every row, the changes of float format being the
  identity here (Proof/Tile.lean); the 32 blocks tile the [32768, 64] result, which is reshaped to [16, 2048, 64]
  (Proof/Whole.lean), and flattening the leading axes commutes with the layer (Proof/Flatten.lean). Both sums run over the
  same index k in the same order, so no law of the extended reals beyond rewriting equal terms is used and the
  precondition is never opened. The ideal pass rewrote nothing, so the kernel's idealization is its own text.
-/
import proofs.«147193_j65558380806418_1_alg».proof.Defs
import proofs.«147193_j65558380806418_1_alg».proof.Proof.Gen.Kernel
import proofs.«147193_j65558380806418_1_alg».proof.Proof.Gen.Kernel.Frame
import proofs.«147193_j65558380806418_1_alg».proof.Proof.Gen.KernelIdeal
import proofs.«147193_j65558380806418_1_alg».proof.Proof.Gen.KernelIdeal.Frame
import proofs.«147193_j65558380806418_1_alg».proof.Proof.Gen.ReferenceIdeal
import proofs.«147193_j65558380806418_1_alg».proof.Proof.Gen.ReferenceIdeal.Run
import proofs.«147193_j65558380806418_1_alg».proof.Proof.Gen.ReferenceIdeal.Read
import proofs.«147193_j65558380806418_1_alg».proof.Proof.Gen.Pre_finite_inputs
import proofs.«147193_j65558380806418_1_alg».proof.Proof.RefSide
import proofs.«147193_j65558380806418_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is four host operations: it runs, and none of them writes an argument. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on x, w and the bias, the kernel's result and the reference's are both the layer of those
    three arrays. -/
theorem algebraic : Cert.algebraic_KernelIdeal_ReferenceIdeal := by
  intro m ρ m' ρ' _ hagree
  refine ⟨fun c => Cert.Linear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.Layer.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
